-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512x512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x512 : Shape := ⟨2, ![1024, 512]⟩
abbrev S512x512 : Shape := ⟨2, ![512, 512]⟩
abbrev S512 : Shape := ⟨1, ![512]⟩
abbrev S1x512 : Shape := ⟨2, ![1, 512]⟩
abbrev S32x512 : Shape := ⟨2, ![32, 512]⟩
abbrev S128x512 : Shape := ⟨2, ![128, 512]⟩
abbrev S1x128 : Shape := ⟨2, ![1, 128]⟩
abbrev S32x128 : Shape := ⟨2, ![32, 128]⟩
abbrev S32x1x512 : Shape := ⟨3, ![32, 1, 512]⟩
abbrev S1x128x512 : Shape := ⟨3, ![1, 128, 512]⟩
abbrev S32x128x512 : Shape := ⟨3, ![32, 128, 512]⟩

abbrev nBuf : Space → Nat
  | .hbm => 5
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S1024x512, .f32⟩
  | .local _ .vmem, ⟨0, _⟩ => ⟨S32x512, .f32⟩
  | .local _ .vmem, ⟨1, _⟩ => ⟨S32x512, .f32⟩
  | .local _ .vmem, ⟨2, _⟩ => ⟨S128x512, .f32⟩
  | .local _ .vmem, ⟨3, _⟩ => ⟨S128x512, .f32⟩
  | .local _ .vmem, ⟨4, _⟩ => ⟨S1x128, .f32⟩
  | .local _ .vmem, ⟨5, _⟩ => ⟨S1x128, .f32⟩
  | .local _ .vmem, ⟨6, _⟩ => ⟨S32x128, .f32⟩
  | .local _ .vmem, ⟨7, _⟩ => ⟨S32x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S512_S1x512 : S512.ShapeCasts S1x512
  inb_S32x512_S32x512_0_0 : ∀ a, (![0, 0] : Fin 2 → Nat) a + S32x512.size a ≤ S32x512.size a
  h_S32x512 : 0 < S32x512.numel
  inb_S128x512_S128x512_0_0 : ∀ a, (![0, 0] : Fin 2 → Nat) a + S128x512.size a ≤ S128x512.size a
  h_S128x512 : 0 < S128x512.numel
  shapeCasts_S32x512_S32x1x512 : S32x512.ShapeCasts S32x1x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  reduces_S32x128x512_S32x128 : S32x128x512.Reduces [2] S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  inb_S32x128_S32x128_0_0 : ∀ a, (![0, 0] : Fin 2 → Nat) a + S32x128.size a ≤ S32x128.size a
  h_S32x128 : 0 < S32x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S1024x512.size a
  hwx0_0 : ∀ i : grid0.Coords, EltTy.bits .f32 = 32 ∨ (Rect.block (s := S1024x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x512.size a
  hwx0_2 : ∀ i : grid0.Coords, EltTy.bits .f32 = 32 ∨ (Rect.block (s := S1x512) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S1024x512.size a
  hwx0_3 : ∀ i : grid0.Coords, EltTy.bits .f32 = 32 ∨ (Rect.block (s := S1024x512) S32x128.size (cc0_transform_3 i) (hinb0_3 i)).WholeWords (EltTy.packing .f32)

variable [Facts₀]

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S512 : Shape := ⟨1, ![512]⟩
abbrev S1024x1x512 : Shape := ⟨3, ![1024, 1, 512]⟩
abbrev S1x512x512 : Shape := ⟨3, ![1, 512, 512]⟩
abbrev S1024x512x512 : Shape := ⟨3, ![1024, 512, 512]⟩
abbrev S_ : Shape := ⟨0, ![]⟩
abbrev S1x512 : Shape := ⟨2, ![1, 512]⟩

abbrev nBuf : Space → Nat
  | .hbm => 15
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x1x512, .f32⟩
  | .hbm, ⟨4, _⟩ => ⟨S1x512x512, .f32⟩
  | .hbm, ⟨5, _⟩ => ⟨S1024x512x512, .f32⟩
  | .hbm, ⟨6, _⟩ => ⟨S1024x512x512, .f32⟩
  | .hbm, ⟨7, _⟩ => ⟨S1024x512x512, .f32⟩
  | .hbm, ⟨8, _⟩ => ⟨S1024x512x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1x512, .f32⟩
  | .hbm, ⟨13, _⟩ => ⟨S1024x512, .f32⟩
  | .hbm, ⟨14, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S1024x512_S1024x1x512_0_2 : S1024x512.BroadcastsInDim S1024x1x512 (![0, 2] : Fin 2 → Fin S1024x1x512.rank)
  bcast_S512x512_S1x512x512_1_2 : S512x512.BroadcastsInDim S1x512x512 (![1, 2] : Fin 2 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d2 : S1024x512x512.ReducesTo [2] S1024x512
  h_S_ : 0 < S_.numel
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)

variable [Facts₀]

class Facts : Prop extends Facts₀ where

variable [Facts]
-- ==== Proof.Spec.lean ====
/-
  What both programs compute, as one function of the three argument arrays over the extended reals.

  For a batch row `r` of `x` (1024 rows of 512 features) and an output feature `o` (a row of the 512 × 512 weight), the
  result is the NEGATED L1 DISTANCE between the two rows plus the feature's bias:
      y[r, o] = -(∑ k, |x[r, k] - w[o, k]|) + bias[o].
  The absolute value is written the way both programs carry it at the ideal values, as the larger of a difference and
  its negation, so that neither side needs a lemma about `|·|` on the extended reals. No law beyond `0 - s = -s` and
  `0 + s = s` joins the two programs, and both hold on every extended real: nothing here needs the inputs finite.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.L1Spec

/-- The absolute difference of two extended reals: the larger of `a - b` and its negation. -/
def gap (a b : EReal) : EReal := max (a - b) (-(a - b))

/-- The L1 distance between row `r` of `x` and row `o` of `w`: the gaps summed over the 512 features. -/
def dist (x : FVec Ideal ⟨2, ![1024, 512]⟩ .f32) (w : FVec Ideal ⟨2, ![512, 512]⟩ .f32) (r : Fin 1024) (o : Fin 512) : EReal :=
  ∑ k : Fin 512, gap (x (ix2 r k)) (w (ix2 o k))

/-- The result array: the distance negated, plus the output feature's bias. -/
def G (x : FVec Ideal ⟨2, ![1024, 512]⟩ .f32) (w : FVec Ideal ⟨2, ![512, 512]⟩ .f32) (b : FVec Ideal ⟨1, ![512]⟩ .f32) :
    FVec Ideal ⟨2, ![1024, 512]⟩ .f32 :=
  fun i => -(dist x w (i 0) (i 1)) + b (ix1 (i 1))

/-- The same distance over a 32-row block of `x` and a 128-row block of `w`: what one grid point sums. -/
def blockDist (xb : FVec Ideal ⟨2, ![32, 512]⟩ .f32) (wb : FVec Ideal ⟨2, ![128, 512]⟩ .f32) (p : Fin 32) (q : Fin 128) : EReal :=
  ∑ k : Fin 512, gap (xb (ix2 p k)) (wb (ix2 q k))

/-- Subtracting from zero negates, on every extended real. -/
theorem zero_sub_ereal (s : EReal) : (0 : EReal) - s = -s := zero_sub s

end Cert.L1Spec

end
-- ==== Proof.RefValue.lean ====
/-
  The reference, read index by index, is the specification `L1Spec.G`.

  The reference broadcasts `x` to [1024, 1, 512] and then along the middle axis, `w` to [1, 512, 512] and then along the
  leading axis, subtracts, takes absolute values, sums the last axis from zero, negates, and adds the bias broadcast
  along the rows. Read at `(r, o)` through the chain of broadcasts, term `k` of the sum is `|x[r, k] - w[o, k]|`, and the
  leading zero of the sum drops.
-/
import proofs.«164374_j77189152243805_1_alg».proof.Proof.Gen.ReferenceIdeal.Read
import proofs.«164374_j77189152243805_1_alg».proof.Proof.Spec

noncomputable section

open scoped BigOperators
open Idealize.ShloMosaic Idealize.ShloMosaic.ValueIdx

namespace Cert.ReferenceIdeal.RefValue

open Cert.ReferenceIdeal Cert.ReferenceIdeal.Read Cert.L1Spec

/-- Through the two broadcasts of `x`, entry `(r, o, k)` of the difference's left operand is `x[r, k]`. -/
theorem idx_x (i : S1024x512.Idx) (k : Fin 512) : idx_main_v0 (idx_main_v2 (idx_main_v6 i k)) = ix2 (i 0) k :=
  funext fun a => Fin.ext (by match a with | ⟨0, _⟩ => rfl | ⟨1, _⟩ => rfl)

/-- Through the two broadcasts of `w`, entry `(r, o, k)` of the difference's right operand is `w[o, k]`. -/
theorem idx_w (i : S1024x512.Idx) (k : Fin 512) : idx_main_v1 (idx_main_v3 (idx_main_v6 i k)) = ix2 (i 1) k :=
  funext fun a => Fin.ext (by match a with | ⟨0, _⟩ => rfl | ⟨1, _⟩ => rfl)

/-- Through the two broadcasts of the bias, entry `(r, o)` of the added term is `bias[o]`. -/
theorem idx_b (i : S1024x512.Idx) : idx_main_v8 (idx_main_v9 i) = ix1 (i 1) :=
  funext fun a => Fin.ext (by match a with | ⟨0, _⟩ => rfl)

/-- The reference's last stage is the specification, at every index. -/
theorem ref_eq (x : FVec Ideal S1024x512 .f32) (w : FVec Ideal S512x512 .f32) (b : FVec Ideal S512 .f32) :
    val_main_v10 (F := Ideal) x w b = G x w b := by
  funext i
  rw [val_main_v10_apply, val_main_v7_apply, val_main_v6_apply, val_main_v9_apply, val_main_v8_apply, val_main_cst_apply]
  simp only [val_main_v5_apply, val_main_v4_apply, val_main_v2_apply, val_main_v3_apply, val_main_v0_apply,
    val_main_v1_apply, idx_x, idx_w, idx_b, Ideal.addf_def, Ideal.hostNegf_def, Ideal.negf_def, Ideal.ofBits_def,
    Ideal.ofBits_zero_f32, zero_add, Ideal.hostAbsf_def, Ideal.absf_def, Ideal.subf_def]
  rfl

end Cert.ReferenceIdeal.RefValue

end
-- ==== Proof.BlockValue.lean ====
/-
  What one grid point leaves in its 32 × 128 output block, read at an entry.

  The body lifts the 32 × 512 block of `x` to [32, 1, 512] and the 128 × 512 block of `w` to [1, 128, 512], broadcasts
  both to [32, 128, 512], subtracts, takes absolute values, sums the last axis, subtracts the sum from zero and adds the
  1 × 128 block of the bias broadcast along the rows. At entry `(p, q)` that is
      -(∑ k, |xb[p, k] - wb[q, k]|) + bb[0, q] :
  the two broadcasts read `xb[p, k]` and `wb[q, k]` at `(p, q, k)`, the lane sum is the `Fin 512`-indexed sum over the
  last coordinate, and zero minus the sum is its negation on every extended real.
-/
import proofs.«164374_j77189152243805_1_alg».proof.Proof.Gen.KernelIdeal.Value
import proofs.«164374_j77189152243805_1_alg».proof.Proof.Spec
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.KernelIdeal.BlockValue

open Cert.KernelIdeal Cert.KernelIdeal.Gen Cert.L1Spec

/-- The block of `x`, lifted to [32, 1, 512] and broadcast along the middle axis, holds `xb[p, k]` at `(p, q, k)`. -/
theorem xcast_apply (xb : Vec Ideal S32x512 .f32) (p : Fin 32) (q : Fin 128) (k : Fin 512) :
    broadcastTo S32x128x512 (shapeCast S32x1x512 xb shapeCasts_S32x512_S32x1x512) broadcasts_S32x1x512_S32x128x512 (ix3 p q k)
      = xb (ix2 p k) := by
  refine (broadcastTo_apply _ _ (ix3 p q k) (ix3 p (0 : Fin 1) k) (fun a => match a with
    | ⟨0, _⟩ => by show p.val = if (32 : Nat) = 1 then 0 else p.val; rw [if_neg (by decide)]
    | ⟨1, _⟩ => by show 0 = if (1 : Nat) = 1 then 0 else q.val; rw [if_pos rfl]
    | ⟨2, _⟩ => by show k.val = if (512 : Nat) = 1 then 0 else k.val; rw [if_neg (by decide)])).trans ?_
  exact shapeCast_apply _ _ (ix3 p (0 : Fin 1) k) (ix2 p k) (by
    rw [Shape.rowMajor_val_two, Shape.rowMajor_val_three]
    show p.val * 512 + k.val = (p.val * 1 + 0) * 512 + k.val
    omega)

/-- The block of `w`, lifted to [1, 128, 512] and broadcast along the leading axis, holds `wb[q, k]` at `(p, q, k)`. -/
theorem wcast_apply (wb : Vec Ideal S128x512 .f32) (p : Fin 32) (q : Fin 128) (k : Fin 512) :
    broadcastTo S32x128x512 (shapeCast S1x128x512 wb shapeCasts_S128x512_S1x128x512) broadcasts_S1x128x512_S32x128x512 (ix3 p q k)
      = wb (ix2 q k) := by
  refine (broadcastTo_apply _ _ (ix3 p q k) (ix3 (0 : Fin 1) q k) (fun a => match a with
    | ⟨0, _⟩ => by show 0 = if (1 : Nat) = 1 then 0 else p.val; rw [if_pos rfl]
    | ⟨1, _⟩ => by show q.val = if (128 : Nat) = 1 then 0 else q.val; rw [if_neg (by decide)]
    | ⟨2, _⟩ => by show k.val = if (512 : Nat) = 1 then 0 else k.val; rw [if_neg (by decide)])).trans ?_
  exact shapeCast_apply _ _ (ix3 (0 : Fin 1) q k) (ix2 q k) (by
    rw [Shape.rowMajor_val_two, Shape.rowMajor_val_three]
    show q.val * 512 + k.val = (0 * 128 + q.val) * 512 + k.val
    omega)

/-- The lane sum of the absolute differences, at `(p, q)`, is the block's L1 distance between row `p` and row `q`. -/
theorem lanesum_apply (xb : Vec Ideal S32x512 .f32) (wb : Vec Ideal S128x512 .f32) (p : Fin 32) (q : Fin 128) :
    multiReduction (F := Ideal) .add [2] S32x128
        (absf (subf (broadcastTo S32x128x512 (shapeCast S32x1x512 xb shapeCasts_S32x512_S32x1x512) broadcasts_S32x1x512_S32x128x512)
          (broadcastTo S32x128x512 (shapeCast S1x128x512 wb shapeCasts_S128x512_S1x128x512) broadcasts_S1x128x512_S32x128x512)))
        0x00000000#32 reduces_S32x128x512_S32x128 (.inl rfl) rfl (ix2 p q)
      = blockDist xb wb p q := by
  refine (Ideal.multiReduction_add_single (φ := .f32) _ 0x00000000#32 reduces_S32x128x512_S32x128 (.inl rfl) rfl (ix2 p q)).trans ?_
  unfold blockDist gap
  refine Finset.sum_congr rfl fun (k : Fin 512) _ => ?_
  have hk : reduces_S32x128x512_S32x128.lift (ix2 p q) k = ix3 p q k :=
    funext fun a => Fin.ext (by match a with | ⟨0, _⟩ => rfl | ⟨1, _⟩ => rfl | ⟨2, _⟩ => rfl)
  rw [hk]
  show max (_ - _) (-(_ - _)) = _
  rw [xcast_apply xb p q k, wcast_apply wb p q k]

/-- ENTRY `(p, q)` OF THE BLOCK a point writes: the block's distance negated, plus the bias block's entry `(0, q)`. -/
theorem E3_apply (xb : Vec Ideal S32x512 .f32) (wb : Vec Ideal S128x512 .f32) (bb : Vec Ideal S1x128 .f32) (p : Fin 32) (q : Fin 128) :
    Value.E3 (F := Ideal) xb wb bb (ix2 p q) = -(blockDist xb wb p q) + bb (ix2 (0 : Fin 1) q) := by
  have h0 : Value.ix3_0 (ix2 p q) = ix2 p q :=
    funext fun a => Fin.ext (by match a with | ⟨0, _⟩ => rfl | ⟨1, _⟩ => rfl)
  have h1 : Value.ix3_1 (ix2 p q) = ix2 (0 : Fin 1) q :=
    funext fun a => Fin.ext (by match a with | ⟨0, _⟩ => rfl | ⟨1, _⟩ => rfl)
  show (Ideal.ofBits .f32 0x00000000#32 - _) + _ = _
  rw [h0, h1, lanesum_apply, Ideal.ofBits_zero_f32, zero_sub_ereal]

end Cert.KernelIdeal.BlockValue

end
-- ==== Proof.ArrayValue.lean ====
/-
  From blocks to the array: after the run the output array IS the specification `L1Spec.G` of the three arguments.

  The grid has 32 × 4 points. Point `(i, j)` stages rows `32 i … 32 i + 31` of `x`, rows `128 j … 128 j + 127` of `w` and
  columns `128 j … 128 j + 127` of the bias row, and writes back the 32 × 128 block of the output at block index `(i, j)`.
  Entry `(p, q)` of that block is the block distance negated plus the bias block's entry (BlockValue), and read through
  the three windows it is the array entry `(32 i + p, 128 j + q)` of `G`. The 128 output blocks tile the 1024 × 512 array:
  row `r` and column `o` lie in the block of point `(r / 32, o / 128)`. The bias reaches the region as a 1 × 512 row, the
  host reshape of the argument, whose entry `(0, o)` is `bias[o]`.
-/
import proofs.«164374_j77189152243805_1_alg».proof.Proof.Gen.KernelIdeal.Value
import proofs.«164374_j77189152243805_1_alg».proof.Proof.BlockValue
import Idealize.ShloMosaic.Lib.StableHlo.Run
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.L1Spec Cert.KernelIdeal.BlockValue

/-- An output block's entry is the array's entry, once each block entry it reads is the array entry at the shifted
    coordinates: the sums agree term by term. Stated over plain arrays and blocks, to be used at a grid point. -/
theorem point_eq (X : FVec Ideal S1024x512 .f32) (W : FVec Ideal S512x512 .f32) (B : FVec Ideal S512 .f32)
    (xb : Vec Ideal S32x512 .f32) (wb : Vec Ideal S128x512 .f32) (bb : Vec Ideal S1x128 .f32)
    (p : Fin 32) (q : Fin 128) (r : Fin 1024) (o : Fin 512)
    (hx : ∀ k : Fin 512, xb (ix2 p k) = X (ix2 r k)) (hw : ∀ k : Fin 512, wb (ix2 q k) = W (ix2 o k))
    (hb : bb (ix2 (0 : Fin 1) q) = B (ix1 o)) :
    -(blockDist xb wb p q) + bb (ix2 (0 : Fin 1) q) = G X W B (ix2 r o) := by
  show -(∑ k : Fin 512, gap (xb (ix2 p k)) (wb (ix2 q k))) + bb (ix2 (0 : Fin 1) q)
    = -(∑ k : Fin 512, gap (X (ix2 r k)) (W (ix2 o k))) + B (ix1 o)
  rw [hb, Finset.sum_congr rfl fun k _ => by rw [hx k, hw k]]

variable (m : (ℓ : Loc nD τ sig) → Buf (Elt Ideal) ℓ) (ρ : Dev nD → PrngReg)

theorem origin : (![0, 0] : Fin 2 → Nat) = fun _ => 0 := funext fun a => by fin_cases a <;> rfl

/-- The region finds the bias as a 1 × 512 row: the host reshape of the argument before the call. -/
theorem bias_row (c : Dev nD) :
    (V m c main_v0 : S1x512.Idx → EReal) = shapeCast S1x512 (m ((c : Thread nD τ).loc main_arg2)) shapeCasts_S512_S1x512 := by
  dsimp only [Gen.V, Gen.hostOps0]; after_results; rfl

/-- Entry `(0, o)` of that row is `bias[o]`. -/
theorem bias_row_apply (c : Dev nD) (o : Fin 512) :
    (V m c main_v0 : S1x512.Idx → EReal) (ix2 (0 : Fin 1) o) = (m ((c : Thread nD τ).loc main_arg2) : S512.Idx → EReal) (ix1 o) := by
  rw [bias_row]
  exact shapeCast_apply _ _ (ix2 (0 : Fin 1) o) (ix1 o) (by
    rw [Shape.rowMajor_val_one, Shape.rowMajor_val_two]
    show o.val = 0 * 512 + o.val
    omega)

/-- The printed index maps, decided over the 128 grid points: the block of `x` moves with the output's block row and the
    blocks of `w` and of the bias row with its block column; the other block indices are zero; the output's block
    indices stay inside the 32 × 4 box. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 31 ∧ win0_3.index t (1 : Fin 2) ≤ 3 :=
  (by decide +kernel : ∀ t : Fin grid0.N, _)

/-- Every block of the 32 × 4 box is some point's. -/
theorem idx_onto : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-- WHAT POINT `t` WRITES BACK is block `t` of `G` of the arguments. -/
theorem flushed_eq (c : Dev nD) (t : Fin cfg0.N) :
    (dats m 0 c).flushed 3 t = ((cfg0.win 3).blk t).view.read (Elt Ideal)
      (G (V m c main_arg0) (V m c main_arg1) (m ((c : Thread nD τ).loc main_arg2))) := by
  rw [Value.flushed3]
  unfold out0_3
  simp only [View.ld_unit_zero (S := S32x512) origin, View.ld_unit_zero (S := S128x512) origin,
    View.ld_unit_zero (S := S1x128) origin]
  obtain ⟨e0, e1, e2, e3, e4, e5, e6, e7⟩ := idx_facts t
  funext j
  obtain ⟨p, q, rfl⟩ : ∃ (p : Fin 32) (q : Fin 128), j = ix2 p q := ⟨j 0, j 1, eq_ix2 j⟩
  have hp : p.val < 32 := p.isLt
  have hq : q.val < 128 := q.isLt
  have hr : win0_3.index t (0 : Fin 2) * 32 + 1 * p.val < 1024 := by omega
  have ho : win0_3.index t (1 : Fin 2) * 128 + 1 * q.val < 512 := by omega
  have hemb : ((cfg0.win 3).blk t).view.emb (ix2 p q)
      = ix2 (⟨win0_3.index t (0 : Fin 2) * 32 + 1 * p.val, hr⟩ : Fin 1024) (⟨win0_3.index t (1 : Fin 2) * 128 + 1 * q.val, ho⟩ : Fin 512) :=
    funext fun a => Fin.ext (by match a with | ⟨0, _⟩ => rfl | ⟨1, _⟩ => rfl)
  show (View.canon [(⟨r0_3, k0_pay1 (F := Ideal) (iblk m c 0 t) (iblk m c 1 t) (iblk m c 2 t)⟩ : View.Piece (Elt Ideal) S32x128 .f32)]
      : Vec Ideal S32x128 .f32) (ix2 p q)
    = G (V m c main_arg0) (V m c main_arg1) (m ((c : Thread nD τ).loc main_arg2)) (((cfg0.win 3).blk t).view.emb (ix2 p q))
  rw [hemb]
  refine (Value.canon3_eq (F := Ideal) (iblk m c 0 t) (iblk m c 1 t) (iblk m c 2 t) (ix2 p q)).trans ?_
  refine (E3_apply (iblk m c 0 t) (iblk m c 1 t) (iblk m c 2 t) p q).trans ?_
  refine point_eq _ _ _ _ _ _ p q _ _ (fun k => ?_) (fun k => ?_) ?_
  · have hk : k.val < 512 := k.isLt
    show V m c main_arg0 (((cfg0.win 0).blk t).view.emb (ix2 p k)) = V m c main_arg0 _
    refine congrArg (V m c main_arg0) (funext fun a => Fin.ext ?_)
    match a with
    | ⟨0, _⟩ => show win0_0.index t (0 : Fin 2) * 32 + 1 * p.val = win0_3.index t (0 : Fin 2) * 32 + 1 * p.val; omega
    | ⟨1, _⟩ => show win0_0.index t (1 : Fin 2) * 512 + 1 * k.val = k.val; omega
  · have hk : k.val < 512 := k.isLt
    show V m c main_arg1 (((cfg0.win 1).blk t).view.emb (ix2 q k)) = V m c main_arg1 _
    refine congrArg (V m c main_arg1) (funext fun a => Fin.ext ?_)
    match a with
    | ⟨0, _⟩ => show win0_1.index t (0 : Fin 2) * 128 + 1 * q.val = win0_3.index t (1 : Fin 2) * 128 + 1 * q.val; omega
    | ⟨1, _⟩ => show win0_1.index t (1 : Fin 2) * 512 + 1 * k.val = k.val; omega
  · show V m c main_v0 (((cfg0.win 2).blk t).view.emb (ix2 (0 : Fin 1) q)) = _
    refine Eq.trans (congrArg (V m c main_v0) (funext fun a => Fin.ext ?_)) (bias_row_apply m c ⟨win0_3.index t (1 : Fin 2) * 128 + 1 * q.val, ho⟩)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the array is in point `t`'s block iff each coordinate is in the block's range on its axis. -/
theorem mem_blk (t : Fin cfg0.N) (i : S1024x512.Idx) :
    i ∈ ((cfg0.win 3).blk t).view.set ↔ ∀ a : Fin 2, win0_3.index t a * S32x128.size a ≤ (i a).val ∧ (i a).val < win0_3.index t a * S32x128.size a + S32x128.size a := by
  show i ∈ ((View.whole main_v1).slice (win0_3.rect t)).set ↔ _
  rw [View.set_slice_whole, Rect.mem_set_unit]
  exact Iff.rfl

/-- The output's blocks tile the array: entry `(r, o)` lies in the block of the point with block index `(r / 32, o / 128)`. -/
theorem cover (i : S1024x512.Idx) : ∃ t : Fin cfg0.N, (cfg0.win 3).flush t = true ∧ i ∈ ((cfg0.win 3).blk t).view.set := by
  have hi0 : (i 0).val < 1024 := (i 0).isLt
  have hi1 : (i 1).val < 512 := (i 1).isLt
  obtain ⟨t, ht⟩ := idx_onto ⟨(i 0).val / 32, by omega⟩ ⟨(i 1).val / 128, by omega⟩
  have q0 : win0_3.index t (0 : Fin 2) = (i 0).val / 32 := congrFun ht 0
  have q1 : win0_3.index t (1 : Fin 2) = (i 1).val / 128 := congrFun ht 1
  refine ⟨t, flush0_3 t, ?_⟩
  rw [mem_blk]
  intro a
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 128 ≤ (i 1).val ∧ (i 1).val < win0_3.index t (1 : Fin 2) * 128 + 128; omega

/-- THE ARRAY after the run: `G` of the arguments as launched. -/
theorem final (c : Dev nD) :
    (dats m 0 c).arrAt 3 cfg0.N = G (m ((c : Thread nD τ).loc main_arg0)) (m ((c : Thread nD τ).loc main_arg1)) (m ((c : Thread nD τ).loc main_arg2)) := by
  rw [← V_main_arg0 m c, ← V_main_arg1 m c]
  exact (dats m 0 c).arrAt_eq_of_cover 3 _ (fun t _ => flushed_eq m c t) cover

/-- The kernel's run, read: the output array at `G` of the arguments, the arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/- The proof of `Cert.Claim`: a Pallas kernel for the "addition linear" layer, against its jnp reference.

   Both programs compute, for a batch row `r` and an output feature `o`,
       y[r, o] = -(∑ k, |x[r, k] - w[o, k]|) + bias[o]
   (the negated L1 distance between row `r` of `x` and row `o` of the weight, plus the bias). The reference forms the whole
   1024 × 512 × 512 array of differences and sums its last axis; the kernel walks a 32 × 4 grid and at each point forms
   the 32 × 128 × 512 differences of a block of `x` against a block of `w`, sums the last axis and writes one 32 × 128
   block of the result. Over the extended reals the two agree entry by entry with no law beyond `0 - s = -s` (the kernel
   negates by subtracting from zero) and `0 + s = s` (the reference's sum starts from zero): the precondition that the
   inputs are finite is never opened.

   Proof/Spec.lean states the function `G`; Proof/RefValue.lean reads the reference's stages at an index and finds `G`;
   Proof/BlockValue.lean reads one output block's entry off the kernel body; Proof/ArrayValue.lean carries the blocks to
   the whole array (each block is a restriction of `G`; the blocks tile the array). The three frames are the generated
   frame runs; the idealization rewrote nothing, so `preserves` is trivial. -/
import proofs.«164374_j77189152243805_1_alg».proof.Defs
import proofs.«164374_j77189152243805_1_alg».proof.Proof.Gen.Kernel
import proofs.«164374_j77189152243805_1_alg».proof.Proof.Gen.Kernel.Skeleton
import proofs.«164374_j77189152243805_1_alg».proof.Proof.Gen.Kernel.Launch
import proofs.«164374_j77189152243805_1_alg».proof.Proof.Gen.Kernel.Points
import proofs.«164374_j77189152243805_1_alg».proof.Proof.Gen.Kernel.Frame
import proofs.«164374_j77189152243805_1_alg».proof.Proof.Gen.KernelIdeal
import proofs.«164374_j77189152243805_1_alg».proof.Proof.Gen.KernelIdeal.Skeleton
import proofs.«164374_j77189152243805_1_alg».proof.Proof.Gen.KernelIdeal.Launch
import proofs.«164374_j77189152243805_1_alg».proof.Proof.Gen.KernelIdeal.Points
import proofs.«164374_j77189152243805_1_alg».proof.Proof.Gen.KernelIdeal.Frame
import proofs.«164374_j77189152243805_1_alg».proof.Proof.Gen.ReferenceIdeal
import proofs.«164374_j77189152243805_1_alg».proof.Proof.Gen.Pre_finite_inputs
import proofs.«164374_j77189152243805_1_alg».proof.Proof.Gen.KernelIdeal.Value
import proofs.«164374_j77189152243805_1_alg».proof.Proof.Gen.ReferenceIdeal.Run
import proofs.«164374_j77189152243805_1_alg».proof.Proof.Gen.ReferenceIdeal.Read
import proofs.«164374_j77189152243805_1_alg».proof.Proof.RefValue
import proofs.«164374_j77189152243805_1_alg».proof.Proof.ArrayValue
import Idealize.ShloMosaic.Adequacy
import Idealize.ShloMosaic.Init

noncomputable section

namespace Cert.Proof

open Idealize.ShloMosaic Idealize.SL.Sem

/-- The kernel as printed terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x`, `w` and the bias, the kernel's output array and the reference's result are both the
    negated L1 distance plus the bias, `L1Spec.G` of the arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
